-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x4096x4096 : Shape := ⟨4, ![1, 3, 4096, 4096]⟩
abbrev S1x1x4096x4096 : Shape := ⟨4, ![1, 1, 4096, 4096]⟩
abbrev S_ : Shape := ⟨0, ![]⟩

class Facts : Prop where
  bcast_S_S1x3x4096x4096 : S_.BroadcastsInDim S1x3x4096x4096 (![] : Fin 0 → Fin S1x3x4096x4096.rank)
  reducesTo_S1x3x4096x4096_S_d0_1_2_3 : S1x3x4096x4096.ReducesTo [0, 1, 2, 3] S_
  h_S_ : 0 < S_.numel
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_

variable [Facts]

def fn {F : FTy → Type} [FloatOps F] (main_arg0 : FVec F S1x3x4096x4096 .f32) (main_arg1 : FVec F S1x1x4096x4096 .f32) (main_arg2 : FVec F S1x1x4096x4096 .f32) : IVec S_ 1 :=
  let main_v0 : FVec F S1x3x4096x4096 .f32 := Host.absf main_arg0
  let main_cst : FVec F S_ .f32 := constant S_ .f32 0x7F800000#32
  let main_v1 : FVec F S1x3x4096x4096 .f32 := broadcastInDim S1x3x4096x4096 ![] bcast_S_S1x3x4096x4096 main_cst
  let main_v2 : IVec S1x3x4096x4096 1 := cmpf .olt main_v0 main_v1
  let main_c : IVec S_ 1 := constantI S_ 1 1#1
  let main_v3 : IVec S_ 1 := (fun x v => Host.reduce IntOp.andi x v reducesTo_S1x3x4096x4096_S_d0_1_2_3 h_S_) main_v2 main_c
  let main_v4 : FVec F S1x1x4096x4096 .f32 := Host.absf main_arg1
  let main_cst_0 : FVec F S_ .f32 := constant S_ .f32 0x7F800000#32
  let main_v5 : FVec F S1x1x4096x4096 .f32 := broadcastInDim S1x1x4096x4096 ![] bcast_S_S1x1x4096x4096 main_cst_0
  let main_v6 : IVec S1x1x4096x4096 1 := cmpf .olt main_v4 main_v5
  let main_c_1 : IVec S_ 1 := constantI S_ 1 1#1
  let main_v7 : IVec S_ 1 := (fun x v => Host.reduce IntOp.andi x v reducesTo_S1x1x4096x4096_S_d0_1_2_3 h_S_) main_v6 main_c_1
  let main_v8 : IVec S_ 1 := andi main_v3 main_v7
  let main_v9 : FVec F S1x1x4096x4096 .f32 := Host.absf main_arg2
  let main_cst_2 : FVec F S_ .f32 := constant S_ .f32 0x7F800000#32
  let main_v10 : FVec F S1x1x4096x4096 .f32 := broadcastInDim S1x1x4096x4096 ![] bcast_S_S1x1x4096x4096 main_cst_2
  let main_v11 : IVec S1x1x4096x4096 1 := cmpf .olt main_v9 main_v10
  let main_c_3 : IVec S_ 1 := constantI S_ 1 1#1
  let main_v12 : IVec S_ 1 := (fun x v => Host.reduce IntOp.andi x v reducesTo_S1x1x4096x4096_S_d0_1_2_3 h_S_) main_v11 main_c_3
  let main_v13 : IVec S_ 1 := andi main_v8 main_v12
  main_v13
-- ==== Kernel.lean ====
abbrev S1x3x4096x4096 : Shape := ⟨4, ![1, 3, 4096, 4096]⟩
abbrev S1x1x4096x4096 : Shape := ⟨4, ![1, 1, 4096, 4096]⟩
abbrev S3x4096x4096 : Shape := ⟨3, ![3, 4096, 4096]⟩
abbrev S1x4096x4096 : Shape := ⟨3, ![1, 4096, 4096]⟩
abbrev S3x128x4096 : Shape := ⟨3, ![3, 128, 4096]⟩
abbrev S1x128x4096 : Shape := ⟨3, ![1, 128, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x3x4096x4096, .f32⟩
  | .hbm, ⟨1, _⟩ => ⟨S1x1x4096x4096, .f32⟩
  | .hbm, ⟨2, _⟩ => ⟨S1x1x4096x4096, .f32⟩
  | .hbm, ⟨3, _⟩ => ⟨S3x4096x4096, .f32⟩
  | .hbm, ⟨4, _⟩ => ⟨S1x4096x4096, .f32⟩
  | .hbm, ⟨5, _⟩ => ⟨S1x4096x4096, .f32⟩
  | .hbm, ⟨6, _⟩ => ⟨S3x4096x4096, .f32⟩
  | .hbm, ⟨7, _⟩ => ⟨S1x3x4096x4096, .f32⟩
  | .local _ .vmem, ⟨0, _⟩ => ⟨S3x128x4096, .f32⟩
  | .local _ .vmem, ⟨1, _⟩ => ⟨S3x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S3x128x4096, .f32⟩
  | .local _ .vmem, ⟨7, _⟩ => ⟨S3x128x4096, .f32⟩
  | _, _ => ⟨S1x3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x3x4096x4096_S3x4096x4096 : S1x3x4096x4096.ShapeCasts S3x4096x4096
  shapeCasts_S1x1x4096x4096_S1x4096x4096 : S1x1x4096x4096.ShapeCasts S1x4096x4096
  inb_S3x128x4096_S3x128x4096_0_0_0 : ∀ a, (![0, 0, 0] : Fin 3 → Nat) a + S3x128x4096.size a ≤ S3x128x4096.size a
  h_S3x128x4096 : 0 < S3x128x4096.numel
  shapeCasts_S3x128x4096_S3x128x4096 : S3x128x4096.ShapeCasts S3x128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S1x128x4096 : S1x128x4096.ShapeCasts S1x128x4096
  broadcasts_S1x128x4096_S3x128x4096 : S1x128x4096.Broadcasts S3x128x4096
  bcast_S3x4096x4096_S1x3x4096x4096_1_2_3 : S3x4096x4096.BroadcastsInDim S1x3x4096x4096 (![1, 2, 3] : Fin 3 → Fin S1x3x4096x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128x4096.size a ≤ S3x4096x4096.size a
  hwx0_0 : ∀ i : grid0.Coords, EltTy.bits .f32 = 32 ∨ (Rect.block (s := S3x4096x4096) S3x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S1x4096x4096.size a
  hwx0_1 : ∀ i : grid0.Coords, EltTy.bits .f32 = 32 ∨ (Rect.block (s := S1x4096x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S1x4096x4096.size a
  hwx0_2 : ∀ i : grid0.Coords, EltTy.bits .f32 = 32 ∨ (Rect.block (s := S1x4096x4096) S1x128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x128x4096.size a ≤ S3x4096x4096.size a
  hwx0_3 : ∀ i : grid0.Coords, EltTy.bits .f32 = 32 ∨ (Rect.block (s := S3x4096x4096) S3x128x4096.size (cc0_transform_3 i) (hinb0_3 i)).WholeWords (EltTy.packing .f32)

variable [Facts₀]

abbrev win0_0 : Pipeline.Window sig grid0 :=
  Pipeline.Window.ofSpec (Memref.whole main_v0) S3x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x3x4096x4096 : Shape := ⟨4, ![1, 3, 4096, 4096]⟩
abbrev S1x1x4096x4096 : Shape := ⟨4, ![1, 1, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x3x4096x4096, .f32⟩
  | .hbm, ⟨1, _⟩ => ⟨S1x1x4096x4096, .f32⟩
  | .hbm, ⟨2, _⟩ => ⟨S1x1x4096x4096, .f32⟩
  | .hbm, ⟨3, _⟩ => ⟨S1x3x4096x4096, .f32⟩
  | .hbm, ⟨4, _⟩ => ⟨S1x3x4096x4096, .f32⟩
  | .hbm, ⟨5, _⟩ => ⟨S_, .f32⟩
  | .hbm, ⟨6, _⟩ => ⟨S1x3x4096x4096, .f32⟩
  | .hbm, ⟨7, _⟩ => ⟨S1x3x4096x4096, .f32⟩
  | .hbm, ⟨8, _⟩ => ⟨S1x3x4096x4096, .f32⟩
  | .hbm, ⟨9, _⟩ => ⟨S1x3x4096x4096, .f32⟩
  | _, _ => ⟨S1x3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S1x1x4096x4096_S1x3x4096x4096_0_1_2_3 : S1x1x4096x4096.BroadcastsInDim S1x3x4096x4096 (![0, 1, 2, 3] : Fin 4 → Fin S1x3x4096x4096.rank)
  bcast_S_S1x3x4096x4096 : S_.BroadcastsInDim S1x3x4096x4096 (![] : Fin 0 → Fin S1x3x4096x4096.rank)

variable [Facts₀]

class Facts : Prop extends Facts₀ where

variable [Facts]
-- ==== Proof.ReluShift.lean ====
/-
  The function both programs compute, and the one change of layout between them.

  An image is indexed (batch, channel, row, column), with one batch entry and three channels; the two planes
  (the mask and the increment) have a single channel, shared by the image's three. At every index the result is

      max (x + mask, 0) + increment,

  the planes read at the index's pixel (its row and column). Kernel and reference apply the same three
  operations in the same order to the same three entries, so no law of the extended reals is needed: everything
  here holds at every float instance.

  The kernel's grid runs over the arrays with the batch axis dropped, so the same function is also stated over
  rank-3 arrays, and `withBatch` joins the two statements: dropping the unit batch axis of the three inputs,
  applying the rank-3 function, and putting the batch axis back, is the rank-4 function.
-/
import Idealize.ShloMosaic.Lib.ValueIdx
import Idealize.ShloMosaic.Lib.Pipeline.Value

noncomputable section

namespace Cert.ReluShift

open Idealize.ShloMosaic Idealize.ShloMosaic.ValueIdx

variable {F : FTy → Type} [FloatOps F]

/-- An image with its batch axis, and a one-channel plane with its batch axis. -/
abbrev Image : Shape := ⟨4, ![1, 3, 4096, 4096]⟩
abbrev Plane : Shape := ⟨4, ![1, 1, 4096, 4096]⟩
/-- The same two without the batch axis. -/
abbrev Image3 : Shape := ⟨3, ![3, 4096, 4096]⟩
abbrev Plane3 : Shape := ⟨3, ![1, 4096, 4096]⟩

/-- The plane entry under an image index: channel 0, the index's row and column. -/
abbrev pixel (i : Image.Idx) : Plane.Idx := ix4 ⟨0, Nat.one_pos⟩ ⟨0, Nat.one_pos⟩ (i 2) (i 3)
/-- The same without the batch axis. -/
abbrev pixel3 (j : Image3.Idx) : Plane3.Idx := ix3 ⟨0, Nat.one_pos⟩ (j 1) (j 2)

/-- `max (x + mask, 0) + increment`, entry by entry, the planes shared by the channels. -/
def reluShift (x : Image.Idx → F .f32) (mask incr : Plane.Idx → F .f32) : Image.Idx → F .f32 := fun i =>
  FloatOps.addf (FloatOps.maximumf (FloatOps.addf (x i) (mask (pixel i))) (FloatOps.ofBits .f32 0x00000000#32)) (incr (pixel i))

/-- The same function of arrays without the batch axis. -/
def reluShift3 (x : Image3.Idx → F .f32) (mask incr : Plane3.Idx → F .f32) : Image3.Idx → F .f32 := fun j =>
  FloatOps.addf (FloatOps.maximumf (FloatOps.addf (x j) (mask (pixel3 j))) (FloatOps.ofBits .f32 0x00000000#32)) (incr (pixel3 j))

/-- A rank-4 array whose first axis has one entry, reshaped to rank 3, holds at `(a, b, c)` the entry `(0, a, b, c)`:
    both have the same row-major position. -/
theorem dropBatch_apply {α : Type} {n1 n2 n3 : Nat} (v : (⟨4, ![1, n1, n2, n3]⟩ : Shape).Idx → α)
    (h : (⟨4, ![1, n1, n2, n3]⟩ : Shape).ShapeCasts ⟨3, ![n1, n2, n3]⟩) (a : Fin n1) (b : Fin n2) (c : Fin n3) :
    shapeCast ⟨3, ![n1, n2, n3]⟩ v h (ix3 a b c) = v (ix4 ⟨0, Nat.one_pos⟩ a b c) := by
  refine (shapeCast_dropUnit_apply ![n1, n2, n3] v h (ix3 a b c)).trans (congrArg v ?_)
  funext d
  match d with
  | ⟨0, _⟩ => rfl
  | ⟨1, _⟩ => rfl
  | ⟨2, _⟩ => rfl
  | ⟨3, _⟩ => rfl

/-- The batch axis put back by a broadcast along the three other axes: entry `(b, ch, r, col)` is entry `(ch, r, col)`. -/
theorem addBatch_apply {α : Type} (hb : Image3.BroadcastsInDim Image ![1, 2, 3]) (y : Image3.Idx → α) (i : Image.Idx) :
    broadcastInDim Image ![1, 2, 3] hb y i = y (ix3 (i 1) (i 2) (i 3)) :=
  broadcastInDim_apply _ hb y i (ix3 (i 1) (i 2) (i 3)) (fun a => match a with
    | ⟨0, _⟩ => by show (i 1).val = if (3 : Nat) = 1 then 0 else (i 1).val; rw [if_neg (by decide)]
    | ⟨1, _⟩ => by show (i 2).val = if (4096 : Nat) = 1 then 0 else (i 2).val; rw [if_neg (by decide)]
    | ⟨2, _⟩ => by show (i 3).val = if (4096 : Nat) = 1 then 0 else (i 3).val; rw [if_neg (by decide)])

/-- Every image index has batch coordinate 0. -/
theorem image_eq (i : Image.Idx) : ix4 ⟨0, Nat.one_pos⟩ (i 1) (i 2) (i 3) = i := by
  funext d
  match d with
  | ⟨0, _⟩ => exact Fin.ext (by have h : (i 0).val < 1 := (i 0).isLt; show 0 = (i 0).val; omega)
  | ⟨1, _⟩ => rfl
  | ⟨2, _⟩ => rfl
  | ⟨3, _⟩ => rfl

/-- Drop the batch axis of the three inputs, apply the rank-3 function, put the batch axis back: the rank-4 function. -/
theorem withBatch (hb : Image3.BroadcastsInDim Image ![1, 2, 3]) (hx : Image.ShapeCasts Image3) (hp : Plane.ShapeCasts Plane3)
    (x : Image.Idx → F .f32) (mask incr : Plane.Idx → F .f32) :
    broadcastInDim Image ![1, 2, 3] hb (reluShift3 (shapeCast Image3 x hx) (shapeCast Plane3 mask hp) (shapeCast Plane3 incr hp))
      = reluShift x mask incr := by
  funext i
  rw [addBatch_apply]
  unfold reluShift3 reluShift
  have ex : shapeCast Image3 x hx (ix3 (i 1) (i 2) (i 3)) = x i :=
    (dropBatch_apply x hx (i 1) (i 2) (i 3)).trans (congrArg x (image_eq i))
  have em : shapeCast Plane3 mask hp (pixel3 (ix3 (i 1) (i 2) (i 3))) = mask (pixel i) :=
    dropBatch_apply mask hp ⟨0, Nat.one_pos⟩ (i 2) (i 3)
  have ep : shapeCast Plane3 incr hp (pixel3 (ix3 (i 1) (i 2) (i 3))) = incr (pixel i) :=
    dropBatch_apply incr hp ⟨0, Nat.one_pos⟩ (i 2) (i 3)
  rw [ex, em, ep]

end Cert.ReluShift

end
-- ==== Proof.ReferenceValue.lean ====
/-
  The reference computes `reluShift`. Its seven host operations, read one at a time at an image index: the mask is
  broadcast over the channels (the entry read is the mask at the index's pixel) and added to the image; the constant 0 is
  broadcast to the image's shape and the maximum taken; the increment is broadcast over the channels likewise and added.
  That is the specification's expression at that index, term for term.
-/
import proofs.«152112_j57543971831865_1_alg».proof.Proof.Gen.ReferenceIdeal.Read
import proofs.«152112_j57543971831865_1_alg».proof.Proof.ReluShift

noncomputable section

namespace Cert.ReferenceIdeal.RefValue

open Cert.ReferenceIdeal Cert.ReferenceIdeal.Gen Cert.ReferenceIdeal.Read Cert.ReluShift
open Idealize.ShloMosaic Idealize.ShloMosaic.ValueIdx

variable {F : FTy → Type} [FloatOps F]

/-- The entry of the mask a broadcast image entry reads is the one at its pixel. -/
theorem idx_mask (i : S1x3x4096x4096.Idx) : idx_main_v0 i = pixel i := by
  funext a
  match a with
  | ⟨0, _⟩ => rfl
  | ⟨1, _⟩ => rfl
  | ⟨2, _⟩ => rfl
  | ⟨3, _⟩ => rfl

/-- And so is the entry of the increment. -/
theorem idx_incr (i : S1x3x4096x4096.Idx) : idx_main_v3 i = pixel i := by
  funext a
  match a with
  | ⟨0, _⟩ => rfl
  | ⟨1, _⟩ => rfl
  | ⟨2, _⟩ => rfl
  | ⟨3, _⟩ => rfl

/-- The reference's result, as a function of its three arguments, is `reluShift`. -/
theorem reference_eq (x : (⟨S1x3x4096x4096, .f32⟩ : BufTy).Contents (Elt F)) (mask incr : (⟨S1x1x4096x4096, .f32⟩ : BufTy).Contents (Elt F)) :
    val_main_v4 (F := F) x mask incr = reluShift x mask incr := by
  funext i
  rw [val_main_v4_apply, val_main_v2_apply, val_main_v1_apply, val_main_v0_apply, val_main_v3_apply,
    val_main_call0_v0_apply, val_main_call0_cst_apply, idx_mask, idx_incr]
  rfl

end Cert.ReferenceIdeal.RefValue

end
-- ==== Proof.RegionValue.lean ====
/-
  What the region leaves in its output array. The grid has 32 points; point `t` works on rows 128·t … 128·t + 127
  of the (batch-less) arrays: all three channels of the image and of the output, the one channel of the two planes,
  every column. The body adds the mask block, broadcast over the channels, to the image block, takes the maximum
  with 0 and adds the increment block, broadcast likewise; so what point `t` writes back is block `t` of ONE function
  of the arrays the region finds, `reluShift3`. The 32 blocks tile the output array (a row `r` lies in block `r / 128`),
  so the array ends holding that function everywhere.
-/
import proofs.«152112_j57543971831865_1_alg».proof.Proof.Gen.KernelIdeal.Frame
import proofs.«152112_j57543971831865_1_alg».proof.Proof.ReluShift
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.ReluShift
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ) (ρ : Dev nD → PrngReg)

/-! ## The body's arithmetic at an index of the block -/

theorem zero_offsets : (![0, 0, 0] : Fin 3 → Nat) = fun _ => 0 := funext fun a => by fin_cases a <;> rfl

/-- A one-channel block broadcast over the three channels holds at `(ch, r, col)` the block's entry `(0, r, col)`. -/
theorem overChannels_apply {α : Type} (x : S1x128x4096.Idx → α) (h : S1x128x4096.Broadcasts S3x128x4096)
    (ch : Fin 3) (r : Fin 128) (col : Fin 4096) :
    broadcastTo S3x128x4096 x h (ix3 ch r col) = x (ix3 ⟨0, Nat.one_pos⟩ r col) :=
  broadcastTo_apply x h (ix3 ch r col) (ix3 ⟨0, Nat.one_pos⟩ r col) (fun a => match a with
    | ⟨0, _⟩ => by show 0 = if (1 : Nat) = 1 then 0 else _; rw [if_pos rfl]
    | ⟨1, _⟩ => by show r.val = if (128 : Nat) = 1 then 0 else r.val; rw [if_neg (by decide)]
    | ⟨2, _⟩ => by show col.val = if (4096 : Nat) = 1 then 0 else col.val; rw [if_neg (by decide)])

/-- The stored value at an index of the block: image entry plus mask entry, the maximum with 0, plus increment entry,
    the two planes' blocks read at the index's row and column. -/
theorem body_apply (x0 : Vec F S3x128x4096 .f32) (x1 x2 : Vec F S1x128x4096 .f32) (j : S3x128x4096.Idx) :
    k0_pay1 x0 x1 x2 j
      = FloatOps.addf (FloatOps.maximumf (FloatOps.addf (x0 j) (x1 (ix3 ⟨0, Nat.one_pos⟩ (j 1) (j 2)))) (FloatOps.ofBits .f32 0x00000000#32))
          (x2 (ix3 ⟨0, Nat.one_pos⟩ (j 1) (j 2))) := by
  obtain ⟨ch, r, col, rfl⟩ : ∃ (ch : Fin 3) (r : Fin 128) (col : Fin 4096), j = ix3 ch r col := ⟨j 0, j 1, j 2, eq_ix3 j⟩
  unfold k0_pay1
  rw [shapeCast_self, shapeCast_self, shapeCast_self]
  show FloatOps.addf (FloatOps.maximumf (FloatOps.addf (x0 (ix3 ch r col)) (broadcastTo S3x128x4096 x1 broadcasts_S1x128x4096_S3x128x4096 (ix3 ch r col))) _)
      (broadcastTo S3x128x4096 x2 broadcasts_S1x128x4096_S3x128x4096 (ix3 ch r col)) = _
  rw [overChannels_apply, overChannels_apply]
  rfl

/-! ## What a point writes back -/

/-- The printed index maps, decided over the 32 points: every window's block index is 0 along the channels and the
    columns, and along the rows the three inputs' is the output's. -/
theorem idx_facts : ∀ t : Fin cfg0.N,
    win0_0.index t (0 : Fin 3) = 0 ∧ win0_0.index t (1 : Fin 3) = win0_3.index t (1 : Fin 3) ∧ win0_0.index t (2 : Fin 3) = 0
    ∧ win0_1.index t (0 : Fin 3) = 0 ∧ win0_1.index t (1 : Fin 3) = win0_3.index t (1 : Fin 3) ∧ win0_1.index t (2 : Fin 3) = 0
    ∧ win0_2.index t (0 : Fin 3) = 0 ∧ win0_2.index t (1 : Fin 3) = win0_3.index t (1 : Fin 3) ∧ win0_2.index t (2 : Fin 3) = 0
    ∧ win0_3.index t (0 : Fin 3) = 0 ∧ win0_3.index t (2 : Fin 3) = 0 :=
  (by decide +kernel : ∀ t : Fin grid0.N, _)

/-- Every block row of the output is some point's. -/
theorem idx_onto : ∀ q : Fin 32, ∃ t : Fin cfg0.N, win0_3.index t = ![0, q.val, 0] :=
  (by decide +kernel : ∀ q : Fin 32, ∃ t : Fin grid0.N, win0_3.index t = ![0, q.val, 0])

/-- WHAT POINT `t` WRITES BACK is block `t` of `reluShift3` of the three arrays as the region finds them. -/
theorem flushed_eq (c : Dev nD) (t : Fin cfg0.N) :
    (dats m 0 c).flushed 3 t
      = ((cfg0.win 3).blk t).view.read (Elt F) (reluShift3 (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S3x128x4096) zero_offsets, View.ld_unit_zero (S := S1x128x4096) zero_offsets]
  obtain ⟨e00, e01, e02, e10, e11, e12, e20, e21, e22, e30, e32⟩ := idx_facts t
  funext j
  refine (body_apply _ _ _ j).trans ?_
  show FloatOps.addf (FloatOps.maximumf (FloatOps.addf (V m c main_v0 (((cfg0.win 0).blk t).view.emb j))
        (V m c main_v1 (((cfg0.win 1).blk t).view.emb (ix3 ⟨0, Nat.one_pos⟩ (j 1) (j 2))))) (FloatOps.ofBits .f32 0x00000000#32))
        (V m c main_v2 (((cfg0.win 2).blk t).view.emb (ix3 ⟨0, Nat.one_pos⟩ (j 1) (j 2))))
      = FloatOps.addf (FloatOps.maximumf (FloatOps.addf (V m c main_v0 (((cfg0.win 3).blk t).view.emb j))
        (V m c main_v1 (pixel3 (((cfg0.win 3).blk t).view.emb j)))) (FloatOps.ofBits .f32 0x00000000#32))
        (V m c main_v2 (pixel3 (((cfg0.win 3).blk t).view.emb j)))
  have hj1 : (j 1).val < 128 := (j 1).isLt
  have hj2 : (j 2).val < 4096 := (j 2).isLt
  have h0 : ((cfg0.win 0).blk t).view.emb j = ((cfg0.win 3).blk t).view.emb j := by
    funext a; apply Fin.ext
    match a with
    | ⟨0, _⟩ => show win0_0.index t (0 : Fin 3) * 3 + 1 * (j 0).val = win0_3.index t (0 : Fin 3) * 3 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 4096 + 1 * (j 2).val = win0_3.index t (2 : Fin 3) * 4096 + 1 * (j 2).val; omega
  have h1 : ((cfg0.win 1).blk t).view.emb (ix3 ⟨0, Nat.one_pos⟩ (j 1) (j 2)) = pixel3 (((cfg0.win 3).blk t).view.emb j) := by
    funext a; apply Fin.ext
    match a with
    | ⟨0, _⟩ => show win0_1.index t (0 : Fin 3) * 1 + 1 * 0 = 0; omega
    | ⟨1, _⟩ => show win0_1.index t (1 : Fin 3) * 128 + 1 * (j 1).val = win0_3.index t (1 : Fin 3) * 128 + 1 * (j 1).val; omega
    | ⟨2, _⟩ => show win0_1.index t (2 : Fin 3) * 4096 + 1 * (j 2).val = win0_3.index t (2 : Fin 3) * 4096 + 1 * (j 2).val; omega
  have h2 : ((cfg0.win 2).blk t).view.emb (ix3 ⟨0, Nat.one_pos⟩ (j 1) (j 2)) = pixel3 (((cfg0.win 3).blk t).view.emb j) := by
    funext a; apply Fin.ext
    match a with
    | ⟨0, _⟩ => show win0_2.index t (0 : Fin 3) * 1 + 1 * 0 = 0; omega
    | ⟨1, _⟩ => show win0_2.index t (1 : Fin 3) * 128 + 1 * (j 1).val = win0_3.index t (1 : Fin 3) * 128 + 1 * (j 1).val; omega
    | ⟨2, _⟩ => show win0_2.index t (2 : Fin 3) * 4096 + 1 * (j 2).val = win0_3.index t (2 : Fin 3) * 4096 + 1 * (j 2).val; omega
  rw [h0, h1, h2]

/-! ## The blocks tile the array -/

/-- An index of the output array is in point `t`'s block iff each coordinate is in the block's range on its axis. -/
theorem mem_blk (t : Fin cfg0.N) (i : S3x4096x4096.Idx) :
    i ∈ ((cfg0.win 3).blk t).view.set ↔ ∀ a : Fin 3, win0_3.index t a * S3x128x4096.size a ≤ (i a).val
      ∧ (i a).val < win0_3.index t a * S3x128x4096.size a + S3x128x4096.size a := by
  show i ∈ ((View.whole main_v3).slice (win0_3.rect t)).set ↔ _
  rw [View.set_slice_whole, Rect.mem_set_unit]
  exact Iff.rfl

/-- Every index of the output array is in the block of the point its row selects: row `r` is in block `r / 128`. -/
theorem covered (i : S3x4096x4096.Idx) :
    ∃ t : Fin cfg0.N, (cfg0.win 3).flush t = true ∧ i ∈ ((cfg0.win 3).blk t).view.set := by
  have hi0 : (i 0).val < 3 := (i 0).isLt
  have hi1 : (i 1).val < 4096 := (i 1).isLt
  have hi2 : (i 2).val < 4096 := (i 2).isLt
  obtain ⟨t, ht⟩ := idx_onto ⟨(i 1).val / 128, by omega⟩
  have q0 : win0_3.index t (0 : Fin 3) = 0 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 128 ≤ (i 1).val ∧ (i 1).val < win0_3.index t (1 : Fin 3) * 128 + 128; omega
  | ⟨2, _⟩ => show win0_3.index t (2 : Fin 3) * 4096 ≤ (i 2).val ∧ (i 2).val < win0_3.index t (2 : Fin 3) * 4096 + 4096; omega

/-- THE OUTPUT ARRAY after the region: `reluShift3` of the three arrays the region found, everywhere. -/
theorem region_array (c : Dev nD) :
    (dats m 0 c).arrAt 3 cfg0.N = reluShift3 (V m c main_v0) (V m c main_v1) (V m c main_v2) :=
  (dats m 0 c).arrAt_eq_of_cover 3 _ (fun t _ => flushed_eq m c t) covered

end Cert.KernelIdeal.RegionValue

end
-- ==== Proof.WholeValue.lean ====
/-
  The whole kernel program: three reshapes drop the batch axis of the inputs, the region computes `reluShift3` of the
  three batch-less arrays, and a final broadcast puts the batch axis back. By `withBatch` the result is `reluShift` of
  the three arguments as launched. The run is the generated frame run with that result named, the arguments unchanged.
-/
import proofs.«152112_j57543971831865_1_alg».proof.Proof.RegionValue
import Idealize.ShloMosaic.Lib.StableHlo.Run

set_option maxRecDepth 16384

noncomputable section

namespace Cert.KernelIdeal.WholeValue

open Cert.KernelIdeal Cert.KernelIdeal.Gen Cert.KernelIdeal.RegionValue Cert.ReluShift
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-! ## The arrays the region finds: the arguments with the batch axis dropped -/

theorem entry_image (c : Dev nD) :
    (V m c main_v0 : S3x4096x4096.Idx → Elt F .f32)
      = shapeCast S3x4096x4096 (m ((c : Thread nD τ).loc main_arg0)) shapeCasts_S1x3x4096x4096_S3x4096x4096 := by
  show StableHlo.after hostOps0 (fun b => m (c, b)) (Proc.devRef .tc main_v0) = _
  after_results
  rfl

theorem entry_mask (c : Dev nD) :
    (V m c main_v1 : S1x4096x4096.Idx → Elt F .f32)
      = shapeCast S1x4096x4096 (m ((c : Thread nD τ).loc main_arg1)) shapeCasts_S1x1x4096x4096_S1x4096x4096 := by
  show StableHlo.after hostOps0 (fun b => m (c, b)) (Proc.devRef .tc main_v1) = _
  after_results
  rfl

theorem entry_incr (c : Dev nD) :
    (V m c main_v2 : S1x4096x4096.Idx → Elt F .f32)
      = shapeCast S1x4096x4096 (m ((c : Thread nD τ).loc main_arg2)) shapeCasts_S1x1x4096x4096_S1x4096x4096 := by
  show StableHlo.after hostOps0 (fun b => m (c, b)) (Proc.devRef .tc main_v2) = _
  after_results
  rfl

/-! ## The result: the region's array with the batch axis put back -/

/-- The program's result is `reluShift` of its three arguments. -/
theorem result_eq (c : Dev nD) :
    Pipeline.afterTail₀ cfgs (dats m) 0 (V0 m) [hostOps1] c main_v4
      = reluShift (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hreg : Pipeline.withArrays (cfgs 0).spec c (V0 m c) (fun w => (dats m 0 c).arrAt w (cfgs 0).N) (Proc.devRef .tc main_v3)
      = reluShift3 (V m c main_v0) (V m c main_v1) (V m c main_v2) :=
    (Pipeline.withArrays_arr spec0 launch0.win.arr_inj c _ _ 3).trans (region_array m c)
  rw [hreg, entry_image, entry_mask, entry_incr]
  exact withBatch _ _ _ _ _ _

/-! ## The run -/

/-- Every weakly fair execution of the kernel program terminates with its result at `reluShift` of the arguments and the
    arguments unchanged. -/
theorem run : θ_run defs (onTc (τ := τ) (main (F := F))) ⟨m, fun _ => 0, ρ⟩ fun r => ∀ c : Dev nD,
      r.2.mem ((c : Thread nD τ).loc main_v4)
        = reluShift (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.WholeValue

end
-- ==== Proof.lean ====
/-
  Kernel and reference compute the same function of an image `x` and two one-channel planes, a mask and an increment:

      out = max (x + mask, 0) + increment,

  the planes shared by the image's three channels (`Cert.ReluShift.reluShift`, Proof/ReluShift.lean). Both sides apply
  the same three operations, in the same order, to the same three entries at every index, so the two results are equal
  as extended reals with no algebraic law and no use of the inputs' finiteness.

  The reference does it in seven whole-array operations, read one at a time at an index (Proof/ReferenceValue.lean).
  The kernel drops the batch axis, runs a grid of 32 points, each computing 128 rows of all channels, whose blocks tile
  the output (Proof/RegionValue.lean), and puts the batch axis back (Proof/WholeValue.lean).

  The three frames: the two kernel programs' are the generated frame certificates; the reference's is its generated run
  with the result forgotten. No operation was rewritten in idealizing the kernel, so there is nothing to preserve.
-/
import proofs.«152112_j57543971831865_1_alg».proof.Defs
import proofs.«152112_j57543971831865_1_alg».proof.Proof.Gen.Kernel
import proofs.«152112_j57543971831865_1_alg».proof.Proof.Gen.Kernel.Skeleton
import proofs.«152112_j57543971831865_1_alg».proof.Proof.Gen.Kernel.Launch
import proofs.«152112_j57543971831865_1_alg».proof.Proof.Gen.Kernel.Points
import proofs.«152112_j57543971831865_1_alg».proof.Proof.Gen.Kernel.Frame
import proofs.«152112_j57543971831865_1_alg».proof.Proof.Gen.KernelIdeal
import proofs.«152112_j57543971831865_1_alg».proof.Proof.Gen.KernelIdeal.Skeleton
import proofs.«152112_j57543971831865_1_alg».proof.Proof.Gen.KernelIdeal.Launch
import proofs.«152112_j57543971831865_1_alg».proof.Proof.Gen.KernelIdeal.Points
import proofs.«152112_j57543971831865_1_alg».proof.Proof.Gen.KernelIdeal.Frame
import proofs.«152112_j57543971831865_1_alg».proof.Proof.Gen.ReferenceIdeal
import proofs.«152112_j57543971831865_1_alg».proof.Proof.Gen.Pre_finite_inputs
import proofs.«152112_j57543971831865_1_alg».proof.Proof.Gen.ReferenceIdeal.Run
import proofs.«152112_j57543971831865_1_alg».proof.Proof.Gen.ReferenceIdeal.Read
import proofs.«152112_j57543971831865_1_alg».proof.Proof.ReluShift
import proofs.«152112_j57543971831865_1_alg».proof.Proof.ReferenceValue
import proofs.«152112_j57543971831865_1_alg».proof.Proof.RegionValue
import proofs.«152112_j57543971831865_1_alg».proof.Proof.WholeValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the three arguments, both programs end with `max (x + mask, 0) + increment` of those
    arguments as the result, and with the arguments unchanged. -/
theorem algebraic : Cert.algebraic_KernelIdeal_ReferenceIdeal := by
  intro m ρ m' ρ' _ hagree
  refine ⟨_, Cert.KernelIdeal.WholeValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.RefValue.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
